-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x64x4096 : Shape := ⟨3, ![4, 64, 4096]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4x64x4096 : S_.BroadcastsInDim S4x64x4096 (![] : Fin 0 → Fin S4x64x4096.rank)
  reducesTo_S4x64x4096_S_d0_1_2 : S4x64x4096.ReducesTo [0, 1, 2] S_

variable [Facts]

def fn {F : FTy → Type} [FloatOps F] (main_arg0 : FVec F S4x4096x4096 .f32) (main_arg1 : FVec F S4x64x4096 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4x64x4096 .f32 := Host.absf main_arg1
  let main_cst_0 : FVec F S_ .f32 := constant S_ .f32 0x7F800000#32
  let main_v5 : FVec F S4x64x4096 .f32 := broadcastInDim S4x64x4096 ![] bcast_S_S4x64x4096 main_cst_0
  let main_v6 : IVec S4x64x4096 1 := cmpf .olt main_v4 main_v5
  let main_c_1 : IVec S_ 1 := constantI S_ 1 1#1
  let main_v7 : IVec S_ 1 := (fun x v => Host.reduce IntOp.andi x v reducesTo_S4x64x4096_S_d0_1_2 h_S_) main_v6 main_c_1
  let main_v8 : IVec S_ 1 := andi main_v3 main_v7
  main_v8
-- ==== Kernel.lean ====
abbrev S4x4096x4096 : Shape := ⟨3, ![4, 4096, 4096]⟩
abbrev S4x64x4096 : Shape := ⟨3, ![4, 64, 4096]⟩
abbrev S_ : Shape := ⟨0, ![]⟩
abbrev S1x1x1 : Shape := ⟨3, ![1, 1, 1]⟩
abbrev S4x4096 : Shape := ⟨2, ![4, 4096]⟩
abbrev S4x4096x64 : Shape := ⟨3, ![4, 4096, 64]⟩
abbrev S4x4096x1 : Shape := ⟨3, ![4, 4096, 1]⟩
abbrev S4x1x4096 : Shape := ⟨3, ![4, 1, 4096]⟩
abbrev S1x1024x64 : Shape := ⟨3, ![1, 1024, 64]⟩
abbrev S1x64x1024 : Shape := ⟨3, ![1, 64, 1024]⟩
abbrev S1x1024x1 : Shape := ⟨3, ![1, 1024, 1]⟩
abbrev S1x1x1024 : Shape := ⟨3, ![1, 1, 1024]⟩
abbrev S1x1024x1024 : Shape := ⟨3, ![1, 1024, 1024]⟩
abbrev S1024x64 : Shape := ⟨2, ![1024, 64]⟩
abbrev S64x1024 : Shape := ⟨2, ![64, 1024]⟩
abbrev S1024x1024 : Shape := ⟨2, ![1024, 1024]⟩
abbrev S1024x1 : Shape := ⟨2, ![1024, 1]⟩
abbrev S1x1024 : Shape := ⟨2, ![1, 1024]⟩

abbrev nBuf : Space → Nat
  | .hbm => 35
  | .vmem => 10
  | .smem => 0
  | _ => 0

abbrev bufTy : (tb : Table) → Fin (tcTables nBuf tb) → BufTy
  | .hbm, ⟨0, _⟩ => ⟨S4x4096x4096, .f32⟩
  | .hbm, ⟨1, _⟩ => ⟨S4x64x4096, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S1x1x1, .f32⟩
  | .hbm, ⟨9, _⟩ => ⟨S4x64x4096, .f32⟩
  | .hbm, ⟨10, _⟩ => ⟨S4x64x4096, .f32⟩
  | .hbm, ⟨11, _⟩ => ⟨S4x64x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x64x4096, .f32⟩
  | .hbm, ⟨25, _⟩ => ⟨S4x64x4096, .f32⟩
  | .hbm, ⟨26, _⟩ => ⟨S4x64x4096, .f32⟩
  | .hbm, ⟨27, _⟩ => ⟨S_, .f32⟩
  | .hbm, ⟨28, _⟩ => ⟨S4x4096, .f32⟩
  | .hbm, ⟨29, _⟩ => ⟨S4x64x4096, .bf16⟩
  | .hbm, ⟨30, _⟩ => ⟨S4x4096x64, .f32⟩
  | .hbm, ⟨31, _⟩ => ⟨S4x4096x64, .bf16⟩
  | .hbm, ⟨32, _⟩ => ⟨S4x4096x1, .f32⟩
  | .hbm, ⟨33, _⟩ => ⟨S4x1x4096, .f32⟩
  | .hbm, ⟨34, _⟩ => ⟨S4x4096x4096, .f32⟩
  | .local _ .vmem, ⟨0, _⟩ => ⟨S1x1024x64, .bf16⟩
  | .local _ .vmem, ⟨1, _⟩ => ⟨S1x1024x64, .bf16⟩
  | .local _ .vmem, ⟨2, _⟩ => ⟨S1x64x1024, .bf16⟩
  | .local _ .vmem, ⟨3, _⟩ => ⟨S1x64x1024, .bf16⟩
  | .local _ .vmem, ⟨4, _⟩ => ⟨S1x1024x1, .f32⟩
  | .local _ .vmem, ⟨5, _⟩ => ⟨S1x1024x1, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .f32⟩
  | .local _ .vmem, ⟨9, _⟩ => ⟨S1x1024x1024, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_cst_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_cst_1 : Ref sig .tc := ⟨.hbm, 13, rfl⟩
abbrev main_call0_call0_v8 : Ref sig .tc := ⟨.hbm, 14, rfl⟩
abbrev main_call0_call0_cst_2 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_cst_3 : Ref sig .tc := ⟨.hbm, 18, rfl⟩
abbrev main_call0_call0_v11 : Ref sig .tc := ⟨.hbm, 19, rfl⟩
abbrev main_call0_call0_cst_4 : Ref sig .tc := ⟨.hbm, 20, rfl⟩
abbrev main_call0_call0_call0_v0 : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  reducesTo_S4x64x4096_S_d0_1_2 : S4x64x4096.ReducesTo [0, 1, 2] S_
  h_S_ : 0 < S_.numel
  bcast_S_S1x1x1 : S_.BroadcastsInDim S1x1x1 (![] : Fin 0 → Fin S1x1x1.rank)
  bcast_S1x1x1_S4x64x4096_0_1_2 : S1x1x1.BroadcastsInDim S4x64x4096 (![0, 1, 2] : Fin 3 → Fin S4x64x4096.rank)
  bcast_S_S4x64x4096 : S_.BroadcastsInDim S4x64x4096 (![] : Fin 0 → Fin S4x64x4096.rank)
  reducesTo_S4x64x4096_S4x4096_d1 : S4x64x4096.ReducesTo [1] S4x4096
  bitsLt_bf16_f32 : FTy.bits .bf16 < FTy.bits .f32
  transposes_S4x64x4096_S4x4096x64_0_2_1 : S4x64x4096.Transposes [0, 2, 1] S4x4096x64
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1024x1_S1024x1024 : S1024x1.Broadcasts S1024x1024
  broadcasts_S1x1024_S1024x1024 : S1x1024.Broadcasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S4x4096x64.size a
  hwx0_0 : ∀ i : grid0.Coords, EltTy.bits .bf16 = 32 ∨ (Rect.block (s := S4x4096x64) S1x1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x64x4096.size a
  hwx0_1 : ∀ i : grid0.Coords, EltTy.bits .bf16 = 32 ∨ (Rect.block (s := S4x64x4096) S1x64x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S4x4096x1.size a
  hwx0_2 : ∀ i : grid0.Coords, EltTy.bits .f32 = 32 ∨ (Rect.block (s := S4x4096x1) S1x1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x1024.size a ≤ S4x4096x4096.size a
  hwx0_4 : ∀ i : grid0.Coords, EltTy.bits .f32 = 32 ∨ (Rect.block (s := S4x4096x4096) S1x1024x1024.size (cc0_transform_4 i) (hinb0_4 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v7) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x4096x4096 : Shape := ⟨3, ![4, 4096, 4096]⟩
abbrev S4x64x4096 : Shape := ⟨3, ![4, 64, 4096]⟩
abbrev S_ : Shape := ⟨0, ![]⟩
abbrev S1x1x1 : Shape := ⟨3, ![1, 1, 1]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x64x4096, .f32⟩
  | .hbm, ⟨2, _⟩ => ⟨S_, .i32⟩
  | .hbm, ⟨3, _⟩ => ⟨S_, .f32⟩
  | .hbm, ⟨4, _⟩ => ⟨S_, .f32⟩
  | .hbm, ⟨5, _⟩ => ⟨S1x1x1, .f32⟩
  | .hbm, ⟨6, _⟩ => ⟨S_, .f32⟩
  | .hbm, ⟨7, _⟩ => ⟨S1x1x1, .f32⟩
  | .hbm, ⟨8, _⟩ => ⟨S1x1x1, .f32⟩
  | .hbm, ⟨9, _⟩ => ⟨S4x64x4096, .f32⟩
  | .hbm, ⟨10, _⟩ => ⟨S4x64x4096, .f32⟩
  | .hbm, ⟨11, _⟩ => ⟨S4x64x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .i1⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x64x4096, .f32⟩
  | .hbm, ⟨25, _⟩ => ⟨S4x64x4096, .f32⟩
  | .hbm, ⟨26, _⟩ => ⟨S4x64x4096, .f32⟩
  | .hbm, ⟨27, _⟩ => ⟨S_, .f32⟩
  | .hbm, ⟨28, _⟩ => ⟨S4x4096, .f32⟩
  | .hbm, ⟨29, _⟩ => ⟨S4x4096x4096, .f32⟩
  | .hbm, ⟨30, _⟩ => ⟨S4x4096x1, .f32⟩
  | .hbm, ⟨31, _⟩ => ⟨S4x1x4096, .f32⟩
  | .hbm, ⟨32, _⟩ => ⟨S4x4096x4096, .f32⟩
  | .hbm, ⟨33, _⟩ => ⟨S4x4096x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S4x4096x4096, .f32⟩
  | .hbm, ⟨39, _⟩ => ⟨S_, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_call0_cst : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_cst_0 : Ref sig .tc := ⟨.hbm, 6, rfl⟩
abbrev main_call0_call0_v2 : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_v5 : Ref sig .tc := ⟨.hbm, 10, rfl⟩
abbrev main_call0_call0_v6 : Ref sig .tc := ⟨.hbm, 11, rfl⟩
abbrev main_call0_call0_v7 : Ref sig .tc := ⟨.hbm, 12, rfl⟩
abbrev main_call0_call0_cst_1 : Ref sig .tc := ⟨.hbm, 13, rfl⟩
abbrev main_call0_call0_v8 : Ref sig .tc := ⟨.hbm, 14, rfl⟩
abbrev main_call0_call0_cst_2 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_cst_3 : Ref sig .tc := ⟨.hbm, 18, rfl⟩
abbrev main_call0_call0_v11 : Ref sig .tc := ⟨.hbm, 19, rfl⟩
abbrev main_call0_call0_cst_4 : Ref sig .tc := ⟨.hbm, 20, rfl⟩
abbrev main_call0_call0_call0_v0 : Ref sig .tc := ⟨.hbm, 21, rfl⟩
abbrev main_call0_v0 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_cst : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_1 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩

abbrev nD : Nat := 1
abbrev τ : Topo := Topo.v7x

variable {F : FTy → Type} [FloatOps F]

class Facts₀ : Prop where
  reducesTo_S4x64x4096_S_d0_1_2 : S4x64x4096.ReducesTo [0, 1, 2] S_
  h_S_ : 0 < S_.numel
  bcast_S_S1x1x1 : S_.BroadcastsInDim S1x1x1 (![] : Fin 0 → Fin S1x1x1.rank)
  bcast_S1x1x1_S4x64x4096_0_1_2 : S1x1x1.BroadcastsInDim S4x64x4096 (![0, 1, 2] : Fin 3 → Fin S4x64x4096.rank)
  bcast_S_S4x64x4096 : S_.BroadcastsInDim S4x64x4096 (![] : Fin 0 → Fin S4x64x4096.rank)
  reducesTo_S4x64x4096_S4x4096_d1 : S4x64x4096.ReducesTo [1] S4x4096
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  dot_S4x64x4096_S4x64x4096_S4x4096x4096_1_1_2_2_0_0_wf : DotDims.WF S4x64x4096 S4x64x4096 S4x4096x4096 [1] [1] [2] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf

class Facts : Prop extends Facts₀ where

variable [Facts]
-- ==== Proof.Spec.lean ====
/-
  The mathematics both programs compute, stated once over the extended reals.

  From the embedding array `x : [4, 64, 4096]` the host forms, in this order: the mean of all entries, the sum of the
  squared deviations from it, that sum divided by (count − 1) where count − 1 is positive, its square root `σ`, the
  scaled coordinates `coord = x / σ`, and the squared norms `sq[b, n] = Σ_f coord[b, f, n]²`. Nothing below looks
  inside that chain: it is carried as ONE function of `x` (`coordOf`, `sqOf`), the same for both programs.

  From `coord` and `sq` the result at `(b, i, j)` is the Gaussian of the mean squared distance of the points `i`, `j`:
  `exp (max (((sq[b,i] + sq[b,j]) − 2 · Σ_f coord[b,f,i] · coord[b,f,j]) · 2⁻⁶) 0 · (−½))`  (`adjAt`).
  The other program divides by 64 where this one multiplies by 2⁻⁶, and negates and halves where this one multiplies by
  −½; on the extended reals a quotient by a nonzero real IS the product with its inverse and a sign moves freely through
  a product, so the two agree at every extended real, infinite ones included (`scale_eq`, `halve_eq`).
-/
import Idealize.ShloMosaic.PureOps
import Idealize.ShloMosaic.PureOps.Ideal
import Idealize.ShloMosaic.PureOps.Ideal.Laws
import Idealize.ShloMosaic.Lib.ValueIdx

noncomputable section

namespace Cert.GaussAdj

open Idealize.ShloMosaic Idealize.ShloMosaic.ValueIdx

abbrev S_ : Shape := ⟨0, ![]⟩
abbrev S1x1x1 : Shape := ⟨3, ![1, 1, 1]⟩
abbrev S4x64x4096 : Shape := ⟨3, ![4, 64, 4096]⟩
abbrev S4x4096 : Shape := ⟨2, ![4, 4096]⟩
abbrev S4x4096x4096 : Shape := ⟨3, ![4, 4096, 4096]⟩

/-- The shape relations the host chain's reductions and broadcasts take as evidence. -/
structure HostFacts : Prop where
  red_all : S4x64x4096.ReducesTo [0, 1, 2] S_
  pos : 0 < S_.numel
  b_unit : S_.BroadcastsInDim S1x1x1 (![] : Fin 0 → Fin S1x1x1.rank)
  b_full : S1x1x1.BroadcastsInDim S4x64x4096 (![0, 1, 2] : Fin 3 → Fin S4x64x4096.rank)
  b_scal : S_.BroadcastsInDim S4x64x4096 (![] : Fin 0 → Fin S4x64x4096.rank)
  red_f : S4x64x4096.ReducesTo [1] S4x4096

variable (h : HostFacts)

/-- The mean of all entries: their sum over the count 2²⁰. -/
def meanOf (x : FVec Ideal S4x64x4096 .f32) : FVec Ideal S1x1x1 .f32 :=
  Host.divf (broadcastInDim S1x1x1 ![] h.b_unit (Host.reduceAdd x (constant S_ .f32 0x00000000#32) h.red_all h.pos))
    (broadcastInDim S1x1x1 ![] h.b_unit (constant S_ .f32 0x49800000#32))

/-- The deviation of each entry from the mean. -/
def devOf (x : FVec Ideal S4x64x4096 .f32) : FVec Ideal S4x64x4096 .f32 :=
  subf x (broadcastInDim S4x64x4096 ![0, 1, 2] h.b_full (meanOf h x))

/-- The count less the one degree of freedom the mean used. -/
def dofOf : FVec Ideal S_ .f32 :=
  subf (constant S_ .f32 0x49800000#32) (sitofp .f32 (constantI S_ 32 1#32))

/-- The unbiased variance: the squared deviations' sum over `dofOf` (where that is positive). -/
def varOf (x : FVec Ideal S4x64x4096 .f32) : FVec Ideal S_ .f32 :=
  select (cmpf .ogt dofOf (constant S_ .f32 0x00000000#32))
    (Host.divf (Host.reduceAdd (mulf (devOf h x) (devOf h x)) (constant S_ .f32 0x00000000#32) h.red_all h.pos) dofOf)
    (id (constant S_ .f32 0x7FC00000#32))

/-- The standard deviation `σ`. -/
def stdOf (x : FVec Ideal S4x64x4096 .f32) : FVec Ideal S_ .f32 := Host.sqrt (varOf h x)

/-- The coordinates scaled by `σ`. -/
def coordOf (x : FVec Ideal S4x64x4096 .f32) : FVec Ideal S4x64x4096 .f32 :=
  Host.divf x (broadcastInDim S4x64x4096 ![] h.b_scal (stdOf h x))

/-- The squared norm of each point: the sum over the 64 features of its squared coordinates. -/
def sqOf (x : FVec Ideal S4x64x4096 .f32) : FVec Ideal S4x4096 .f32 :=
  Host.reduceAdd (mulf (coordOf h x) (coordOf h x)) (constant S_ .f32 0x00000000#32) h.red_f h.pos

/-- The inner product of the points `i` and `j` of batch `b`. -/
def innerAt (coord : FVec Ideal S4x64x4096 .f32) (b : Fin 4) (i j : Fin 4096) : EReal :=
  ∑ f : Fin 64, coord (ix3 b f i) * coord (ix3 b f j)

/-- The Gaussian of the mean squared distance of the points `i` and `j` of batch `b`. -/
def adjAt (coord : FVec Ideal S4x64x4096 .f32) (sq : FVec Ideal S4x4096 .f32) (b : Fin 4) (i j : Fin 4096) : EReal :=
  Ideal.exp (max (((sq (ix2 b i) + sq (ix2 b j)) - Ideal.ofBits .f32 0x40000000#32 * innerAt coord b i j)
      * Ideal.ofBits .f32 0x3C800000#32) (Ideal.ofBits .f32 0x00000000#32) * Ideal.ofBits .f32 0xBF000000#32)

/-- The whole result array. -/
def adj (coord : FVec Ideal S4x64x4096 .f32) (sq : FVec Ideal S4x4096 .f32) : FVec Ideal S4x4096x4096 .f32 :=
  fun idx => adjAt coord sq (idx 0) (idx 1) (idx 2)

theorem adj_ix3 (coord : FVec Ideal S4x64x4096 .f32) (sq : FVec Ideal S4x4096 .f32) (b : Fin 4) (i j : Fin 4096) :
    adj coord sq (ix3 b i j) = adjAt coord sq b i j := rfl

/-- The word 0x3C800000 is 2⁻⁶ and the word 0x42800000 is 64: a quotient by 64 is the product with 2⁻⁶, at every
    extended real. -/
theorem scale_eq (u : EReal) :
    Ideal.div u (Ideal.ofBits .f32 0x42800000#32) = u * Ideal.ofBits .f32 0x3C800000#32 := by
  have e64 : Ideal.ofBits .f32 0x42800000#32 = ((64 : ℝ) : EReal) := by
    simp [Ideal.ofBits, Ideal.ieee, -EReal.coe_mul]; norm_num
  have einv : Ideal.ofBits .f32 0x3C800000#32 = ((1 / 64 : ℝ) : EReal) := by
    simp [Ideal.ofBits, Ideal.ieee, -EReal.coe_mul]; norm_num
  rw [e64, einv, Ideal.div_coe (by norm_num : (64 : ℝ) ≠ 0)]

/-- The word 0x40000000 is 2 and the word 0xBF000000 is −½: negating then halving is the product with −½, at every
    extended real. -/
theorem halve_eq (u : EReal) :
    Ideal.div (-u) (Ideal.ofBits .f32 0x40000000#32) = u * Ideal.ofBits .f32 0xBF000000#32 := by
  have e2 : Ideal.ofBits .f32 0x40000000#32 = ((2 : ℝ) : EReal) := by
    simp [Ideal.ofBits, Ideal.ieee, -EReal.coe_mul]; norm_num
  have eh : Ideal.ofBits .f32 0xBF000000#32 = ((-(1 / 2) : ℝ) : EReal) := by
    simp [Ideal.ofBits, Ideal.ieee, -EReal.coe_mul]; norm_num
  rw [e2, eh, Ideal.div_coe (by norm_num : (2 : ℝ) ≠ 0), EReal.coe_neg, neg_mul, mul_neg]

end Cert.GaussAdj

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelPayload.lean ====
/-
  The kernel body's one stored value, entry by entry. The body loads a `[1, 1024, 64]` block `x0` of transposed
  coordinates, a `[1, 64, 1024]` block `x1` of coordinates, a `[1, 1024, 1]` column `x2` and a `[1, 1, 1024]` row `x3` of
  squared norms, and stores, at `(·, p, q)`,
  `exp (max (((x2[p] + x3[q]) − 2 · Σ_f x0[p, f] · x1[f, q]) · 2⁻⁶) 0 · (−½))`:
  the matrix product into a zero accumulator is the plain sum over the 64 features, the column and the row are
  broadcast across the tile, the leading unit axes are dropped on the way in and put back on the way out, and the
  rest acts entry by entry.
-/
import proofs.«114206_j32890859553362_1_alg».proof.Proof.Gen.KernelIdeal.Skeleton
import proofs.«114206_j32890859553362_1_alg».proof.Proof.LibColumn
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-- The tile's matrix product into a zero accumulator: at `(p, q)` the sum over the 64 features of row `p` of the
    left block times column `q` of the right block. -/
theorem mm_apply (a : FVec Ideal S1024x64 .bf16) (b : FVec Ideal S64x1024 .bf16) (p q : Fin 1024) :
    matmul dot_S1024x64_S64x1024_S1024x1024_1_0_0_1_n_n none a b (constant S1024x1024 .f32 0x00000000#32) (ix2 p q)
      = ∑ f : Fin 64, a (ix2 p f) * b (ix2 f q) := by
  simp only [matmul]
  rw [Ideal.matmul_constant_zero_apply]
  rw [← Equiv.sum_comp (contrEquiv1 dot_S1024x64_S64x1024_S1024x1024_1_0_0_1_n_n 64 rfl rfl).symm]
  refine Finset.sum_congr rfl fun f _ => ?_
  have hl : dot_S1024x64_S64x1024_S1024x1024_1_0_0_1_n_n.lhsIdx (ix2 p q)
      ((contrEquiv1 dot_S1024x64_S64x1024_S1024x1024_1_0_0_1_n_n 64 rfl rfl).symm f) = ix2 p f := by
    funext c
    match c with
    | ⟨0, _⟩ => rfl
    | ⟨1, _⟩ => rfl
  have hr : dot_S1024x64_S64x1024_S1024x1024_1_0_0_1_n_n.rhsIdx (ix2 p q)
      ((contrEquiv1 dot_S1024x64_S64x1024_S1024x1024_1_0_0_1_n_n 64 rfl rfl).symm f) = ix2 f q := by
    funext c
    match c with
    | ⟨0, _⟩ => rfl
    | ⟨1, _⟩ => rfl
  rw [hl, hr]

/-- The stored tile at `(u, p, q)`, from the four loaded blocks. -/
theorem pay_apply (x0 : FVec Ideal S1x1024x64 .bf16) (x1 : FVec Ideal S1x64x1024 .bf16) (x2 : FVec Ideal S1x1024x1 .f32)
    (x3 : FVec Ideal S1x1x1024 .f32) (u : Fin 1) (p q : Fin 1024) :
    k0_pay1 (F := Ideal) x0 x1 x2 x3 (ix3 u p q)
      = Ideal.exp (max (((x2 (ix3 (0 : Fin 1) p (0 : Fin 1)) + x3 (ix3 (0 : Fin 1) (0 : Fin 1) q))
            - Ideal.ofBits .f32 0x40000000#32 * ∑ f : Fin 64, x0 (ix3 (0 : Fin 1) p f) * x1 (ix3 (0 : Fin 1) f q))
          * Ideal.ofBits .f32 0x3C800000#32) (Ideal.ofBits .f32 0x00000000#32) * Ideal.ofBits .f32 0xBF000000#32) := by
  unfold k0_pay1
  refine (shapeCast_ab_1ab_apply _ _ u p q).trans ?_
  show Ideal.exp (max (((broadcastTo S1024x1024 (shapeCast S1024x1 x2 shapeCasts_S1x1024x1_S1024x1) broadcasts_S1024x1_S1024x1024 (ix2 p q)
          + broadcastTo S1024x1024 (shapeCast S1x1024 x3 shapeCasts_S1x1x1024_S1x1024) broadcasts_S1x1024_S1024x1024 (ix2 p q))
        - Ideal.ofBits .f32 0x40000000#32
          * matmul dot_S1024x64_S64x1024_S1024x1024_1_0_0_1_n_n none (shapeCast S1024x64 x0 shapeCasts_S1x1024x64_S1024x64)
              (shapeCast S64x1024 x1 shapeCasts_S1x64x1024_S64x1024) (constant S1024x1024 .f32 0x00000000#32) (ix2 p q))
      * Ideal.ofBits .f32 0x3C800000#32) (Ideal.ofBits .f32 0x00000000#32) * Ideal.ofBits .f32 0xBF000000#32) = _
  rw [Cert.LibColumn.broadcastTo_a1_ab_apply, broadcastTo_1b_ab_apply, shapeCast_1ab_ab_apply, shapeCast_1ab_ab_apply, mm_apply]
  simp only [shapeCast_1ab_ab_apply]

end Cert.KernelIdeal.Payload

end
-- ==== Proof.KernelValue.lean ====
/-
  The kernel's result array is the Gaussian adjacency of the shared chain's `coord` and `sq`.

  Before the one region the host forms `coord` and `sq` from the embedding array (the shared chain, one function of
  it) and hands the region four arrays: `coord` transposed to `[4, 4096, 64]`, `coord` itself `[4, 64, 4096]` (both
  narrowed to bf16, which is the identity on extended reals), `sq` as a column `[4, 4096, 1]` and as a row `[4, 1, 4096]`.
  The grid is `4 × 4 × 4`: point `(g0, g1, g2)` reads rows `g1·1024 …` of batch `g0` of the transposed coordinates and
  of the column, columns `g2·1024 …` of the coordinates and of the row, and writes the `1024 × 1024` tile at
  `(g0, g1·1024, g2·1024)` of the output. So the tile's entry `(p, q)` is the adjacency at
  `(g0, g1·1024 + p, g2·1024 + q)`; the tiles are disjoint and fill the output, which therefore ends holding the
  adjacency everywhere.
-/
import proofs.«114206_j32890859553362_1_alg».proof.Proof.Gen.KernelIdeal.Value
import proofs.«114206_j32890859553362_1_alg».proof.Proof.Spec
import proofs.«114206_j32890859553362_1_alg».proof.Proof.KernelPayload
import Idealize.ShloMosaic.Lib.StableHlo.Run
import Idealize.ShloMosaic.Lib.ValueLayout

noncomputable section

namespace Cert.KernelIdeal.AdjValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The shape relations of the shared chain, as this program's facts give them. -/
theorem hostFacts : Cert.GaussAdj.HostFacts :=
  ⟨reducesTo_S4x64x4096_S_d0_1_2, h_S_, bcast_S_S1x1x1, bcast_S1x1x1_S4x64x4096_0_1_2, bcast_S_S4x64x4096,
    reducesTo_S4x64x4096_S4x4096_d1⟩

/-- The scaled coordinates and the squared norms of the embedding array as launched on device `c`. -/
abbrev coordK (c : Dev nD) : FVec Ideal S4x64x4096 .f32 :=
  Cert.GaussAdj.coordOf hostFacts (m ((c : Thread nD τ).loc main_arg1))
abbrev sqK (c : Dev nD) : FVec Ideal S4x4096 .f32 :=
  Cert.GaussAdj.sqOf hostFacts (m ((c : Thread nD τ).loc main_arg1))

/-! ## The four arrays the region finds -/

theorem V_v7 (c : Dev nD) :
    (V m c main_v7 : S4x4096x64.Idx → EReal)
      = truncf .bf16 (transpose S4x4096x64 [0, 2, 1] (coordK m c) transposes_S4x64x4096_S4x4096x64_0_2_1) bitsLt_bf16_f32 := by
  dsimp only [V]
  simp only [hostOps0, hostOps0_1, hostOps0_2, List.flatten_cons, List.flatten_nil, List.append_nil, List.cons_append,
    List.nil_append]
  after_results_simp
  rfl

theorem V_v5 (c : Dev nD) :
    (V m c main_v5 : S4x64x4096.Idx → EReal) = truncf .bf16 (coordK m c) bitsLt_bf16_f32 := by
  dsimp only [V]
  simp only [hostOps0, hostOps0_1, hostOps0_2, List.flatten_cons, List.flatten_nil, List.append_nil, List.cons_append,
    List.nil_append]
  after_results_simp
  rfl

theorem V_v8 (c : Dev nD) :
    (V m c main_v8 : S4x4096x1.Idx → EReal) = broadcastInDim S4x4096x1 ![0, 1] bcast_S4x4096_S4x4096x1_0_1 (sqK m c) := by
  dsimp only [V]
  simp only [hostOps0, hostOps0_1, hostOps0_2, List.flatten_cons, List.flatten_nil, List.append_nil, List.cons_append,
    List.nil_append]
  after_results_simp
  rfl

theorem V_v9 (c : Dev nD) :
    (V m c main_v9 : S4x1x4096.Idx → EReal) = broadcastInDim S4x1x4096 ![0, 2] bcast_S4x4096_S4x1x4096_0_2 (sqK m c) := by
  dsimp only [V]
  simp only [hostOps0, hostOps0_1, hostOps0_2, List.flatten_cons, List.flatten_nil, List.append_nil, List.cons_append,
    List.nil_append]
  after_results_simp
  rfl

/-- The transposed coordinates at `(b, i, f)` are the coordinates at `(b, f, i)`. -/
theorem V_v7_apply (c : Dev nD) (b : Fin 4) (i : Fin 4096) (f : Fin 64) :
    (V m c main_v7 : S4x4096x64.Idx → EReal) (ix3 b i f) = coordK m c (ix3 b f i) := by
  rw [V_v7]
  exact transpose_ix3_021_apply (coordK m c) transposes_S4x64x4096_S4x4096x64_0_2_1 b i f

theorem V_v5_apply (c : Dev nD) (b : Fin 4) (f : Fin 64) (j : Fin 4096) :
    (V m c main_v5 : S4x64x4096.Idx → EReal) (ix3 b f j) = coordK m c (ix3 b f j) := by
  rw [V_v5]
  rfl

/-- The column of norms at `(b, i, ·)` is the norm of point `i`. -/
theorem V_v8_apply (c : Dev nD) (b : Fin 4) (i : Fin 4096) (z : Fin 1) :
    (V m c main_v8 : S4x4096x1.Idx → EReal) (ix3 b i z) = sqK m c (ix2 b i) := by
  rw [V_v8]
  exact broadcastInDim_apply _ _ _ _ (ix2 b i) (fun a => by match a with | ⟨0, _⟩ => rfl | ⟨1, _⟩ => rfl)

/-- The row of norms at `(b, ·, j)` is the norm of point `j`. -/
theorem V_v9_apply (c : Dev nD) (b : Fin 4) (z : Fin 1) (j : Fin 4096) :
    (V m c main_v9 : S4x1x4096.Idx → EReal) (ix3 b z j) = sqK m c (ix2 b j) := by
  rw [V_v9]
  exact broadcastInDim_apply _ _ _ _ (ix2 b j) (fun a => by match a with | ⟨0, _⟩ => rfl | ⟨1, _⟩ => rfl)

/-! ## The index maps, decided over the 64 grid points -/

theorem hz : (![0, 0, 0] : Fin 3 → Nat) = fun _ => 0 := funext fun a => by fin_cases a <;> rfl

/-- Each input window follows the output tile: batch with batch, rows with the tile's rows, columns with the
    tile's columns, the remaining axis whole. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0
    ∧ win0_1.index t (2 : Fin 3) = win0_4.index t (2 : Fin 3)
    ∧ win0_2.index t (0 : Fin 3) = win0_4.index t (0 : Fin 3) ∧ win0_2.index t (1 : Fin 3) = win0_4.index t (1 : Fin 3)
    ∧ win0_2.index t (2 : Fin 3) = 0
    ∧ win0_3.index t (0 : Fin 3) = win0_4.index t (0 : Fin 3) ∧ win0_3.index t (1 : Fin 3) = 0
    ∧ win0_3.index t (2 : Fin 3) = win0_4.index t (2 : Fin 3)
    ∧ win0_4.index t (0 : Fin 3) ≤ 3 ∧ win0_4.index t (1 : Fin 3) ≤ 3 ∧ win0_4.index t (2 : Fin 3) ≤ 3 :=
  (by decide +kernel : ∀ t : Fin grid0.N, _)

/-- Every tile of the output is some point's. -/
theorem idx_onto : ∀ (q0 q1 q2 : Fin 4), ∃ t : Fin cfg0.N, win0_4.index t = ![q0.val, q1.val, q2.val] :=
  (by decide +kernel : ∀ (q0 q1 q2 : Fin 4), ∃ t : Fin grid0.N, win0_4.index t = ![q0.val, q1.val, q2.val])

/-! ## The blocks a point reads, at the entries the tile's entry `(p, q)` uses -/

section Reads

variable (c : Dev nD) (t : Fin cfg0.N) (B : Fin 4) (I J : Fin 4096) (p q : Fin 1024)
variable (hB : B.val = win0_4.index t (0 : Fin 3)) (hI : I.val = win0_4.index t (1 : Fin 3) * 1024 + p.val)
variable (hJ : J.val = win0_4.index t (2 : Fin 3) * 1024 + q.val)

include hB hI in
theorem read0 (f : Fin 64) : iblk m c 0 t (ix3 (0 : Fin 1) p f) = coordK m c (ix3 B f I) := by
  obtain ⟨e00, e01, e02, -⟩ := idx_facts t
  show (V m c main_v7 : S4x4096x64.Idx → EReal) (((cfg0.win 0).blk t).view.emb (ix3 (0 : Fin 1) p f)) = _
  have he : ((cfg0.win 0).blk t).view.emb (ix3 (0 : Fin 1) p f) = ix3 B I f := by
    funext a; apply Fin.ext
    match a with
    | ⟨0, _⟩ => show win0_0.index t (0 : Fin 3) * 1 + 1 * 0 = B.val; omega
    | ⟨1, _⟩ => show win0_0.index t (1 : Fin 3) * 1024 + 1 * p.val = I.val; omega
    | ⟨2, _⟩ => show win0_0.index t (2 : Fin 3) * 64 + 1 * f.val = f.val; omega
  rw [he]
  exact V_v7_apply m c B I f

include hB hJ in
theorem read1 (f : Fin 64) : iblk m c 1 t (ix3 (0 : Fin 1) f q) = coordK m c (ix3 B f J) := by
  obtain ⟨-, -, -, e10, e11, e12, -⟩ := idx_facts t
  show (V m c main_v5 : S4x64x4096.Idx → EReal) (((cfg0.win 1).blk t).view.emb (ix3 (0 : Fin 1) f q)) = _
  have he : ((cfg0.win 1).blk t).view.emb (ix3 (0 : Fin 1) f q) = ix3 B f J := by
    funext a; apply Fin.ext
    match a with
    | ⟨0, _⟩ => show win0_1.index t (0 : Fin 3) * 1 + 1 * 0 = B.val; omega
    | ⟨1, _⟩ => show win0_1.index t (1 : Fin 3) * 64 + 1 * f.val = f.val; omega
    | ⟨2, _⟩ => show win0_1.index t (2 : Fin 3) * 1024 + 1 * q.val = J.val; omega
  rw [he]
  exact V_v5_apply m c B f J

include hB hI in
theorem read2 : iblk m c 2 t (ix3 (0 : Fin 1) p (0 : Fin 1)) = sqK m c (ix2 B I) := by
  obtain ⟨-, -, -, -, -, -, e20, e21, e22, -⟩ := idx_facts t
  show (V m c main_v8 : S4x4096x1.Idx → EReal) (((cfg0.win 2).blk t).view.emb (ix3 (0 : Fin 1) p (0 : Fin 1))) = _
  have he : ((cfg0.win 2).blk t).view.emb (ix3 (0 : Fin 1) p (0 : Fin 1)) = ix3 B I (0 : Fin 1) := by
    funext a; apply Fin.ext
    match a with
    | ⟨0, _⟩ => show win0_2.index t (0 : Fin 3) * 1 + 1 * 0 = B.val; omega
    | ⟨1, _⟩ => show win0_2.index t (1 : Fin 3) * 1024 + 1 * p.val = I.val; omega
    | ⟨2, _⟩ => show win0_2.index t (2 : Fin 3) * 1 + 1 * 0 = 0; omega
  rw [he]
  exact V_v8_apply m c B I 0

include hB hJ in
theorem read3 : iblk m c 3 t (ix3 (0 : Fin 1) (0 : Fin 1) q) = sqK m c (ix2 B J) := by
  obtain ⟨-, -, -, -, -, -, -, -, -, e30, e31, e32, -⟩ := idx_facts t
  show (V m c main_v9 : S4x1x4096.Idx → EReal) (((cfg0.win 3).blk t).view.emb (ix3 (0 : Fin 1) (0 : Fin 1) q)) = _
  have he : ((cfg0.win 3).blk t).view.emb (ix3 (0 : Fin 1) (0 : Fin 1) q) = ix3 B (0 : Fin 1) J := by
    funext a; apply Fin.ext
    match a with
    | ⟨0, _⟩ => show win0_3.index t (0 : Fin 3) * 1 + 1 * 0 = B.val; omega
    | ⟨1, _⟩ => show win0_3.index t (1 : Fin 3) * 1 + 1 * 0 = 0; omega
    | ⟨2, _⟩ => show win0_3.index t (2 : Fin 3) * 1024 + 1 * q.val = J.val; omega
  rw [he]
  exact V_v9_apply m c B 0 J

end Reads

/-! ## What a point writes back, the cover, the array -/

/-- What point `t` writes back is its tile of the adjacency. -/
theorem flushed_eq (c : Dev nD) (t : Fin cfg0.N) :
    (dats m 0 c).flushed 4 t
      = ((cfg0.win 4).blk t).view.read (Elt Ideal) (Cert.GaussAdj.adj (coordK m c) (sqK m c)) := by
  rw [Cert.KernelIdeal.Value.flushed4]
  unfold out0_4
  rw [View.canon_unit_zero hz]
  simp only [View.ld_unit_zero (S := S1x1024x64) hz, View.ld_unit_zero (S := S1x64x1024) hz,
    View.ld_unit_zero (S := S1x1024x1) hz, View.ld_unit_zero (S := S1x1x1024) hz]
  obtain ⟨-, -, -, -, -, -, -, -, -, -, -, -, b0, b1, b2⟩ := idx_facts t
  funext y
  obtain ⟨u, p, q, rfl⟩ : ∃ (u : Fin 1) (p q : Fin 1024), y = ix3 u p q := ⟨y 0, y 1, y 2, eq_ix3 y⟩
  have hu : u.val = 0 := by omega
  have hp : p.val < 1024 := p.isLt
  have hq : q.val < 1024 := q.isLt
  obtain ⟨B, hB⟩ : ∃ B : Fin 4, B.val = win0_4.index t (0 : Fin 3) := ⟨⟨win0_4.index t (0 : Fin 3), by omega⟩, rfl⟩
  obtain ⟨I, hI⟩ : ∃ I : Fin 4096, I.val = win0_4.index t (1 : Fin 3) * 1024 + p.val :=
    ⟨⟨win0_4.index t (1 : Fin 3) * 1024 + p.val, by omega⟩, rfl⟩
  obtain ⟨J, hJ⟩ : ∃ J : Fin 4096, J.val = win0_4.index t (2 : Fin 3) * 1024 + q.val :=
    ⟨⟨win0_4.index t (2 : Fin 3) * 1024 + q.val, by omega⟩, rfl⟩
  have hE : ((cfg0.win 4).blk t).view.emb (ix3 u p q) = ix3 B I J := by
    funext a; apply Fin.ext
    match a with
    | ⟨0, _⟩ => show win0_4.index t (0 : Fin 3) * 1 + 1 * u.val = B.val; omega
    | ⟨1, _⟩ => show win0_4.index t (1 : Fin 3) * 1024 + 1 * p.val = I.val; omega
    | ⟨2, _⟩ => show win0_4.index t (2 : Fin 3) * 1024 + 1 * q.val = J.val; omega
  show k0_pay1 (F := Ideal) (iblk m c 0 t) (iblk m c 1 t) (iblk m c 2 t) (iblk m c 3 t) (ix3 u p q)
      = Cert.GaussAdj.adj (coordK m c) (sqK m c) (((cfg0.win 4).blk t).view.emb (ix3 u p q))
  rw [hE, Cert.GaussAdj.adj_ix3]
  refine (Payload.pay_apply (iblk m c 0 t) (iblk m c 1 t) (iblk m c 2 t) (iblk m c 3 t) u p q).trans ?_
  rw [read2 m c t B I p hB hI, read3 m c t B J q hB hJ]
  unfold Cert.GaussAdj.adjAt Cert.GaussAdj.innerAt
  simp only [read0 m c t B I p hB hI, read1 m c t B J q hB hJ]

/-- An index of the output is in point `t`'s tile iff each coordinate is in the tile's range on its axis. -/
theorem mem_blk (t : Fin cfg0.N) (i : S4x4096x4096.Idx) :
    i ∈ ((cfg0.win 4).blk t).view.set ↔ ∀ a : Fin 3, win0_4.index t a * S1x1024x1024.size a ≤ (i a).val
      ∧ (i a).val < win0_4.index t a * S1x1024x1024.size a + S1x1024x1024.size a := by
  show i ∈ ((View.whole main_v10).slice (win0_4.rect t)).set ↔ _
  rw [View.set_slice_whole, Rect.mem_set_unit]
  exact Iff.rfl

/-- The tiles fill the output: index `(b, i, j)` lies in the tile of the point `(b, i / 1024, j / 1024)`. -/
theorem cover (i : S4x4096x4096.Idx) :
    ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, by omega⟩ ⟨(i 1).val / 1024, by omega⟩ ⟨(i 2).val / 1024, by omega⟩
  have q0 : win0_4.index t (0 : Fin 3) = (i 0).val := congrFun ht 0
  have q1 : win0_4.index t (1 : Fin 3) = (i 1).val / 1024 := congrFun ht 1
  have q2 : win0_4.index t (2 : Fin 3) = (i 2).val / 1024 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 1024 ≤ (i 2).val ∧ (i 2).val < win0_4.index t (2 : Fin 3) * 1024 + 1024; omega

/-- The output array after the run is the adjacency. -/
theorem final (c : Dev nD) : (dats m 0 c).arrAt 4 cfg0.N = Cert.GaussAdj.adj (coordK m c) (sqK m c) :=
  (dats m 0 c).arrAt_eq_of_cover 4 (Cert.GaussAdj.adj (coordK m c) (sqK m c)) (fun t _ => flushed_eq m c t) cover

/-- The kernel's run: every weakly fair execution terminates, the result array at the adjacency of the shared
    chain at the embedding array as launched, both arguments unchanged. -/
theorem run : θ_run defs (onTc (τ := τ) (main (F := Ideal))) ⟨m, fun _ => 0, ρ⟩ fun r => ∀ c : Dev nD,
      r.2.mem ((c : Thread nD τ).loc main_v10) = Cert.GaussAdj.adj (coordK m c) (sqK m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.KernelIdeal.AdjValue

end
-- ==== Proof.RefRun.lean ====
/-
  The reference program's run, read back. Its @main is one straight line of 48 host operations once the call of the
  standard-deviation function is unfolded at its site (that function calls the variance function, which calls the
  select): the operations are listed in order, the callee's over the call's own buffers, and the run is the library's
  run of a list of host operations. The result buffer then holds the operations' composed term of the embedding
  array. That term is stated here through the shared chain — the scaled coordinates `coord` and the squared norms
  `sq`, each ONE function of the embedding array — and `tail`, what the reference does with `coord` and `sq`:
  `exp (−(max ((bcast sq + bcast sq − 2 · coordᵀcoord) / 64) 0) / 2)`.
-/
import proofs.«114206_j32890859553362_1_alg».proof.Proof.Gen.ReferenceIdeal
import proofs.«114206_j32890859553362_1_alg».proof.Proof.Spec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 48 operations in order, the called functions' operations at the call. -/
abbrev ops : List (HloOp τ sig (Elt F)) :=
  [ StableHlo.nullary main_c (constantI S_ 32 1#32),
    StableHlo.TRef.nullary (.of main_call0_call0_cst : StableHlo.TRef sig ⟨S_, .f32⟩) (constant S_ .f32 0x00000000#32),
    StableHlo.TRef.binary (.of main_arg1 : StableHlo.TRef sig ⟨S4x64x4096, .f32⟩) (.of main_call0_call0_cst : StableHlo.TRef sig ⟨S_, .f32⟩) (.of main_call0_call0_v0 : StableHlo.TRef sig ⟨S_, .f32⟩) (fun x v => Host.reduceAdd x v reducesTo_S4x64x4096_S_d0_1_2 h_S_),
    StableHlo.TRef.unary (.of main_call0_call0_v0 : StableHlo.TRef sig ⟨S_, .f32⟩) (.of main_call0_call0_v1 : StableHlo.TRef sig ⟨S1x1x1, .f32⟩) (broadcastInDim S1x1x1 ![] bcast_S_S1x1x1),
    StableHlo.TRef.nullary (.of main_call0_call0_cst_0 : StableHlo.TRef sig ⟨S_, .f32⟩) (constant S_ .f32 0x49800000#32),
    StableHlo.TRef.unary (.of main_call0_call0_cst_0 : StableHlo.TRef sig ⟨S_, .f32⟩) (.of main_call0_call0_v2 : StableHlo.TRef sig ⟨S1x1x1, .f32⟩) (broadcastInDim S1x1x1 ![] bcast_S_S1x1x1),
    StableHlo.TRef.binary (.of main_call0_call0_v1 : StableHlo.TRef sig ⟨S1x1x1, .f32⟩) (.of main_call0_call0_v2 : StableHlo.TRef sig ⟨S1x1x1, .f32⟩) (.of main_call0_call0_v3 : StableHlo.TRef sig ⟨S1x1x1, .f32⟩) Host.divf,
    StableHlo.TRef.unary (.of main_call0_call0_v3 : StableHlo.TRef sig ⟨S1x1x1, .f32⟩) (.of main_call0_call0_v4 : StableHlo.TRef sig ⟨S4x64x4096, .f32⟩) (broadcastInDim S4x64x4096 ![0, 1, 2] bcast_S1x1x1_S4x64x4096_0_1_2),
    StableHlo.TRef.binary (.of main_arg1 : StableHlo.TRef sig ⟨S4x64x4096, .f32⟩) (.of main_call0_call0_v4 : StableHlo.TRef sig ⟨S4x64x4096, .f32⟩) (.of main_call0_call0_v5 : StableHlo.TRef sig ⟨S4x64x4096, .f32⟩) subf,
    StableHlo.TRef.binary (.of main_call0_call0_v5 : StableHlo.TRef sig ⟨S4x64x4096, .f32⟩) (.of main_call0_call0_v5 : StableHlo.TRef sig ⟨S4x64x4096, .f32⟩) (.of main_call0_call0_v6 : StableHlo.TRef sig ⟨S4x64x4096, .f32⟩) mulf,
    StableHlo.TRef.unary (.of main_c : StableHlo.TRef sig ⟨S_, .i32⟩) (.of main_call0_call0_v7 : StableHlo.TRef sig ⟨S_, .f32⟩) (sitofp .f32),
    StableHlo.TRef.nullary (.of main_call0_call0_cst_1 : StableHlo.TRef sig ⟨S_, .f32⟩) (constant S_ .f32 0x49800000#32),
    StableHlo.TRef.binary (.of main_call0_call0_cst_1 : StableHlo.TRef sig ⟨S_, .f32⟩) (.of main_call0_call0_v7 : StableHlo.TRef sig ⟨S_, .f32⟩) (.of main_call0_call0_v8 : StableHlo.TRef sig ⟨S_, .f32⟩) subf,
    StableHlo.TRef.nullary (.of main_call0_call0_cst_2 : StableHlo.TRef sig ⟨S_, .f32⟩) (constant S_ .f32 0x00000000#32),
    StableHlo.TRef.binary (.of main_call0_call0_v6 : StableHlo.TRef sig ⟨S4x64x4096, .f32⟩) (.of main_call0_call0_cst_2 : StableHlo.TRef sig ⟨S_, .f32⟩) (.of main_call0_call0_v9 : StableHlo.TRef sig ⟨S_, .f32⟩) (fun x v => Host.reduceAdd x v reducesTo_S4x64x4096_S_d0_1_2 h_S_),
    StableHlo.TRef.binary (.of main_call0_call0_v9 : StableHlo.TRef sig ⟨S_, .f32⟩) (.of main_call0_call0_v8 : StableHlo.TRef sig ⟨S_, .f32⟩) (.of main_call0_call0_v10 : StableHlo.TRef sig ⟨S_, .f32⟩) Host.divf,
    StableHlo.TRef.nullary (.of main_call0_call0_cst_3 : StableHlo.TRef sig ⟨S_, .f32⟩) (constant S_ .f32 0x00000000#32),
    StableHlo.TRef.binary (.of main_call0_call0_v8 : StableHlo.TRef sig ⟨S_, .f32⟩) (.of main_call0_call0_cst_3 : StableHlo.TRef sig ⟨S_, .f32⟩) (.of main_call0_call0_v11 : StableHlo.TRef sig ⟨S_, .i1⟩) (cmpf .ogt),
    StableHlo.TRef.nullary (.of main_call0_call0_cst_4 : StableHlo.TRef sig ⟨S_, .f32⟩) (constant S_ .f32 0x7FC00000#32),
    StableHlo.TRef.unary (.of main_call0_call0_cst_4 : StableHlo.TRef sig ⟨S_, .f32⟩) (.of main_call0_call0_call0_v0 : StableHlo.TRef sig ⟨S_, .f32⟩) id,
    StableHlo.TRef.ternary (.of main_call0_call0_v11 : StableHlo.TRef sig ⟨S_, .i1⟩) (.of main_call0_call0_v10 : StableHlo.TRef sig ⟨S_, .f32⟩) (.of main_call0_call0_call0_v0 : StableHlo.TRef sig ⟨S_, .f32⟩) (.of main_call0_v0 : StableHlo.TRef sig ⟨S_, .f32⟩) select,
    StableHlo.TRef.unary main_call0_call0.call0.v1 (.of main_v0 : StableHlo.TRef sig ⟨S_, .f32⟩) Host.sqrt,
    StableHlo.unary main_v0 main_v1 (broadcastInDim S4x64x4096 ![] bcast_S_S4x64x4096 : (⟨S_, .f32⟩ : BufTy).Contents (Elt F) → (⟨S4x64x4096, .f32⟩ : BufTy).Contents (Elt F)),
    StableHlo.binary main_arg1 main_v1 main_v2 (Host.divf : (⟨S4x64x4096, .f32⟩ : BufTy).Contents (Elt F) → (⟨S4x64x4096, .f32⟩ : BufTy).Contents (Elt F) → (⟨S4x64x4096, .f32⟩ : BufTy).Contents (Elt F)),
    StableHlo.binary main_v2 main_v2 main_v3 (mulf : (⟨S4x64x4096, .f32⟩ : BufTy).Contents (Elt F) → (⟨S4x64x4096, .f32⟩ : BufTy).Contents (Elt F) → (⟨S4x64x4096, .f32⟩ : BufTy).Contents (Elt F)),
    StableHlo.nullary main_cst (constant S_ .f32 0x00000000#32),
    StableHlo.binary main_v3 main_cst main_v4 ((fun x v => Host.reduceAdd x v reducesTo_S4x64x4096_S4x4096_d1 h_S_) : (⟨S4x64x4096, .f32⟩ : BufTy).Contents (Elt F) → (⟨S_, .f32⟩ : BufTy).Contents (Elt F) → (⟨S4x4096, .f32⟩ : BufTy).Contents (Elt F)),
    StableHlo.binary main_v2 main_v2 main_v5 ((fun l r => Host.dotGeneral dot_S4x64x4096_S4x64x4096_S4x4096x4096_1_1_2_2_0_0 none l r) : (⟨S4x64x4096, .f32⟩ : BufTy).Contents (Elt F) → (⟨S4x64x4096, .f32⟩ : BufTy).Contents (Elt F) → (⟨S4x4096x4096, .f32⟩ : BufTy).Contents (Elt F)),
    StableHlo.unary main_v4 main_v6 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v4 main_v7 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v6 main_v8 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v7 main_v9 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v8 main_v9 main_v10 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_0 (constant S_ .f32 0x40000000#32),
    StableHlo.unary main_cst_0 main_v11 (broadcastInDim S4x4096x4096 ![] bcast_S_S4x4096x4096 : (⟨S_, .f32⟩ : BufTy).Contents (Elt F) → (⟨S4x4096x4096, .f32⟩ : BufTy).Contents (Elt F)),
    StableHlo.binary main_v11 main_v5 main_v12 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v10 main_v12 main_v13 (subf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_1 (constant S_ .f32 0x42800000#32),
    StableHlo.unary main_cst_1 main_v14 (broadcastInDim S4x4096x4096 ![] bcast_S_S4x4096x4096 : (⟨S_, .f32⟩ : BufTy).Contents (Elt F) → (⟨S4x4096x4096, .f32⟩ : BufTy).Contents (Elt F)),
    StableHlo.binary main_v13 main_v14 main_v15 (Host.divf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_2 (constant S_ .f32 0x00000000#32),
    StableHlo.unary main_cst_2 main_v16 (broadcastInDim S4x4096x4096 ![] bcast_S_S4x4096x4096 : (⟨S_, .f32⟩ : BufTy).Contents (Elt F) → (⟨S4x4096x4096, .f32⟩ : BufTy).Contents (Elt F)),
    StableHlo.binary main_v15 main_v16 main_v17 (maximumf : (⟨S4x4096x4096, .f32⟩ : BufTy).Contents (Elt F) → (⟨S4x4096x4096, .f32⟩ : BufTy).Contents (Elt F) → (⟨S4x4096x4096, .f32⟩ : BufTy).Contents (Elt F)),
    StableHlo.unary main_v17 main_v18 (Host.negf : (⟨S4x4096x4096, .f32⟩ : BufTy).Contents (Elt F) → (⟨S4x4096x4096, .f32⟩ : BufTy).Contents (Elt F)),
    StableHlo.nullary main_cst_3 (constant S_ .f32 0x40000000#32),
    StableHlo.unary main_cst_3 main_v19 (broadcastInDim S4x4096x4096 ![] bcast_S_S4x4096x4096 : (⟨S_, .f32⟩ : BufTy).Contents (Elt F) → (⟨S4x4096x4096, .f32⟩ : BufTy).Contents (Elt F)),
    StableHlo.binary main_v18 main_v19 main_v20 (Host.divf : (⟨S4x4096x4096, .f32⟩ : BufTy).Contents (Elt F) → (⟨S4x4096x4096, .f32⟩ : BufTy).Contents (Elt F) → (⟨S4x4096x4096, .f32⟩ : BufTy).Contents (Elt F)),
    StableHlo.unary main_v20 main_v21 (Host.exp : (⟨S4x4096x4096, .f32⟩ : BufTy).Contents (Elt F) → (⟨S4x4096x4096, .f32⟩ : BufTy).Contents (Elt F)) ]

-- forty-eight binds re-associated
set_option maxRecDepth 4096 in
/-- @main is that straight line: the functions' definitions unfolded at their calls. -/
theorem main_eq (c : Dev nD) : main (F := F) c = seq ops := by
  simp only [main, fn_std.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., unary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub .., unary_bufs_sub ..⟩

/-- The shape relations of the shared chain, as this program's facts give them. -/
theorem hostFacts : Cert.GaussAdj.HostFacts :=
  ⟨reducesTo_S4x64x4096_S_d0_1_2, h_S_, bcast_S_S1x1x1, bcast_S1x1x1_S4x64x4096_0_1_2, bcast_S_S4x64x4096,
    reducesTo_S4x64x4096_S4x4096_d1⟩

/-- What the reference computes from the scaled coordinates and the squared norms: the norms broadcast along rows
    and along columns and added, twice the batched product `coordᵀ coord` subtracted, the difference divided by 64,
    clamped below at zero, negated, halved, exponentiated. -/
def tail (coord : FVec Ideal S4x64x4096 .f32) (sq : FVec Ideal S4x4096 .f32) : FVec Ideal S4x4096x4096 .f32 :=
  Host.exp (Host.divf (Host.negf (maximumf
    (Host.divf
      (subf
        (addf (broadcastInDim S4x4096x4096 ![0, 1, 2] bcast_S4x4096x1_S4x4096x4096_0_1_2 (broadcastInDim S4x4096x1 ![0, 1] bcast_S4x4096_S4x4096x1_0_1 sq))
          (broadcastInDim S4x4096x4096 ![0, 1, 2] bcast_S4x1x4096_S4x4096x4096_0_1_2 (broadcastInDim S4x1x4096 ![0, 2] bcast_S4x4096_S4x1x4096_0_2 sq)))
        (mulf (broadcastInDim S4x4096x4096 ![] bcast_S_S4x4096x4096 (constant S_ .f32 0x40000000#32))
          (Host.dotGeneral dot_S4x64x4096_S4x64x4096_S4x4096x4096_1_1_2_2_0_0 none coord coord)))
      (broadcastInDim S4x4096x4096 ![] bcast_S_S4x4096x4096 (constant S_ .f32 0x42800000#32)))
    (broadcastInDim S4x4096x4096 ![] bcast_S_S4x4096x4096 (constant S_ .f32 0x00000000#32))))
    (broadcastInDim S4x4096x4096 ![] bcast_S_S4x4096x4096 (constant S_ .f32 0x40000000#32)))

/-- The fold of the operations at the result buffer is `tail` of the shared chain at the embedding array. -/
theorem out_eq (V : Valuation τ sig (Elt Ideal)) :
    after ops V (main_v21 : DevRef τ sig)
      = tail (Cert.GaussAdj.coordOf hostFacts (V (main_arg1 : DevRef τ sig))) (Cert.GaussAdj.sqOf hostFacts (V (main_arg1 : DevRef τ sig))) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-- From any memory with zero counters every weakly fair execution of the reference terminates, its result at
    `tail` of the shared chain at the embedding array as launched, and both arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = tail (Cert.GaussAdj.coordOf hostFacts (m ((c.tc : Thread nD τ).loc main_arg1))) (Cert.GaussAdj.sqOf hostFacts (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v21).trans (out_eq _), (h c main_arg0).trans (arg0_eq _), (h c main_arg1).trans (arg1_eq _)⟩)
    (run_seq scopedRefs_eq scopedSems_eq defs main (fun _ => ops) main_eq (fun _ => ops_sub) m ρ)

end Cert.ReferenceIdeal.RefRun

end
-- ==== Proof.RefValue.lean ====
/-
  The reference's result, entry by entry. With `coord` the scaled coordinates and `sq` the squared norms, entry
  `(b, i, j)` of what the reference computes is
  `exp (−(max (((sq[b,i] + sq[b,j]) − 2 · Σ_f coord[b,f,i] · coord[b,f,j]) / 64) 0) / 2)`:
  the norms' two broadcasts read one entry each, the batched product contracts the feature axis, and every other
  operation acts entry by entry. The quotient by 64 is the product with 2⁻⁶ and the negated half is the product
  with −½, so this is the Gaussian adjacency `adj coord sq`.
-/
import proofs.«114206_j32890859553362_1_alg».proof.Proof.RefRun
import Idealize.ShloMosaic.Lib.Pipeline.Value
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The norms broadcast along the columns: entry `(b, i, j)` is the norm of point `i`. -/
theorem rowNorms_apply (sq : FVec Ideal S4x4096 .f32) (b : Fin 4) (i j : Fin 4096) :
    broadcastInDim S4x4096x4096 ![0, 1, 2] bcast_S4x4096x1_S4x4096x4096_0_1_2
        (broadcastInDim S4x4096x1 ![0, 1] bcast_S4x4096_S4x4096x1_0_1 sq) (ix3 b i j) = sq (ix2 b i) := by
  rw [broadcastInDim_apply _ _ _ (ix3 b i j) (ix3 b i (0 : Fin 1))
    (fun a => by match a with | ⟨0, _⟩ => rfl | ⟨1, _⟩ => rfl | ⟨2, _⟩ => rfl)]
  exact broadcastInDim_apply _ _ _ _ (ix2 b i) (fun a => by match a with | ⟨0, _⟩ => rfl | ⟨1, _⟩ => rfl)

/-- The norms broadcast along the rows: entry `(b, i, j)` is the norm of point `j`. -/
theorem colNorms_apply (sq : FVec Ideal S4x4096 .f32) (b : Fin 4) (i j : Fin 4096) :
    broadcastInDim S4x4096x4096 ![0, 1, 2] bcast_S4x1x4096_S4x4096x4096_0_1_2
        (broadcastInDim S4x1x4096 ![0, 2] bcast_S4x4096_S4x1x4096_0_2 sq) (ix3 b i j) = sq (ix2 b j) := by
  rw [broadcastInDim_apply _ _ _ (ix3 b i j) (ix3 b (0 : Fin 1) j)
    (fun a => by match a with | ⟨0, _⟩ => rfl | ⟨1, _⟩ => rfl | ⟨2, _⟩ => rfl)]
  exact broadcastInDim_apply _ _ _ _ (ix2 b j) (fun a => by match a with | ⟨0, _⟩ => rfl | ⟨1, _⟩ => rfl)

/-- The batched product `coordᵀ coord`: entry `(b, i, j)` is the inner product of the points `i` and `j` of batch `b`
    over the 64 features. -/
theorem gram_apply (coord : FVec Ideal S4x64x4096 .f32) (b : Fin 4) (i j : Fin 4096) :
    Host.dotGeneral dot_S4x64x4096_S4x64x4096_S4x4096x4096_1_1_2_2_0_0 none coord coord (ix3 b i j)
      = Cert.GaussAdj.innerAt coord b i j := by
  simp only [Host.dotGeneral]
  rw [Ideal.dotGeneral_apply]
  unfold Cert.GaussAdj.innerAt
  rw [← Equiv.sum_comp (contrEquiv1 dot_S4x64x4096_S4x64x4096_S4x4096x4096_1_1_2_2_0_0 64 rfl rfl).symm]
  refine Finset.sum_congr rfl fun f _ => ?_
  have hl : dot_S4x64x4096_S4x64x4096_S4x4096x4096_1_1_2_2_0_0.lhsIdx (ix3 b i j)
      ((contrEquiv1 dot_S4x64x4096_S4x64x4096_S4x4096x4096_1_1_2_2_0_0 64 rfl rfl).symm f) = ix3 b f i := by
    funext a
    match a with
    | ⟨0, _⟩ => rfl
    | ⟨1, _⟩ => rfl
    | ⟨2, _⟩ => rfl
  have hr : dot_S4x64x4096_S4x64x4096_S4x4096x4096_1_1_2_2_0_0.rhsIdx (ix3 b i j)
      ((contrEquiv1 dot_S4x64x4096_S4x64x4096_S4x4096x4096_1_1_2_2_0_0 64 rfl rfl).symm f) = ix3 b f j := by
    funext a
    match a with
    | ⟨0, _⟩ => rfl
    | ⟨1, _⟩ => rfl
    | ⟨2, _⟩ => rfl
  rw [hl, hr]

/-- What the reference computes from `coord` and `sq` is the Gaussian adjacency. -/
theorem tail_eq_adj (coord : FVec Ideal S4x64x4096 .f32) (sq : FVec Ideal S4x4096 .f32) :
    RefRun.tail coord sq = Cert.GaussAdj.adj coord sq := by
  funext idx
  obtain ⟨b, i, j, rfl⟩ : ∃ (b : Fin 4) (i j : Fin 4096), idx = ix3 b i j := ⟨idx 0, idx 1, idx 2, eq_ix3 idx⟩
  rw [Cert.GaussAdj.adj_ix3]
  have e : RefRun.tail coord sq (ix3 b i j)
      = Ideal.exp (Ideal.div (-(max (Ideal.div
          ((broadcastInDim S4x4096x4096 ![0, 1, 2] bcast_S4x4096x1_S4x4096x4096_0_1_2
                (broadcastInDim S4x4096x1 ![0, 1] bcast_S4x4096_S4x4096x1_0_1 sq) (ix3 b i j)
              + broadcastInDim S4x4096x4096 ![0, 1, 2] bcast_S4x1x4096_S4x4096x4096_0_1_2
                (broadcastInDim S4x1x4096 ![0, 2] bcast_S4x4096_S4x1x4096_0_2 sq) (ix3 b i j))
            - Ideal.ofBits .f32 0x40000000#32
              * Host.dotGeneral dot_S4x64x4096_S4x64x4096_S4x4096x4096_1_1_2_2_0_0 none coord coord (ix3 b i j))
          (Ideal.ofBits .f32 0x42800000#32)) (Ideal.ofBits .f32 0x00000000#32)))
          (Ideal.ofBits .f32 0x40000000#32)) := rfl
  rw [e, rowNorms_apply, colNorms_apply, gram_apply, Cert.GaussAdj.scale_eq, Cert.GaussAdj.halve_eq]
  rfl

end Cert.ReferenceIdeal.RefValue

end
-- ==== Proof.lean ====
/-
  The kernel computes the Gaussian adjacency `exp(−d²/2)` of the mean squared distances `d²` between the points of
  each batch, tile by tile on a `4 × 4 × 4` grid, from coordinates scaled by their overall standard deviation; the
  reference computes the same array in one piece. Both form the scaled coordinates `coord` and the squared norms `sq`
  by the same host operations, carried here as one function of the embedding array. From there on both evaluate, at
  `(b, i, j)`, `exp(−max((sq[b,i] + sq[b,j] − 2·Σ_f coord[b,f,i]·coord[b,f,j]) / 64, 0) / 2)`: the kernel multiplies by
  2⁻⁶ and by −½ where the reference divides by 64, negates and halves — equal at every extended real —, and a matrix
  product into a zero accumulator is the batched contraction. The three programs run and leave their arguments
  unchanged; the idealized kernel is the kernel's own text read over the extended reals (no rewrite was applied).
-/
import proofs.«114206_j32890859553362_1_alg».proof.Defs
import proofs.«114206_j32890859553362_1_alg».proof.Proof.Gen.Kernel
import proofs.«114206_j32890859553362_1_alg».proof.Proof.Gen.Kernel.Skeleton
import proofs.«114206_j32890859553362_1_alg».proof.Proof.Gen.Kernel.Launch
import proofs.«114206_j32890859553362_1_alg».proof.Proof.Gen.Kernel.Points
import proofs.«114206_j32890859553362_1_alg».proof.Proof.Gen.Kernel.Frame
import proofs.«114206_j32890859553362_1_alg».proof.Proof.Gen.KernelIdeal
import proofs.«114206_j32890859553362_1_alg».proof.Proof.Gen.KernelIdeal.Skeleton
import proofs.«114206_j32890859553362_1_alg».proof.Proof.Gen.KernelIdeal.Launch
import proofs.«114206_j32890859553362_1_alg».proof.Proof.Gen.KernelIdeal.Points
import proofs.«114206_j32890859553362_1_alg».proof.Proof.Gen.KernelIdeal.Frame
import proofs.«114206_j32890859553362_1_alg».proof.Proof.Gen.ReferenceIdeal
import proofs.«114206_j32890859553362_1_alg».proof.Proof.Gen.Pre_finite_inputs
import proofs.«114206_j32890859553362_1_alg».proof.Proof.KernelValue
import proofs.«114206_j32890859553362_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.RefRun.run m ρ)

/-- No operation was rewritten. -/
theorem preserves : Cert.preserves_Kernel_KernelIdeal := trivial

/-- Both result arrays are the adjacency of the shared chain at the one embedding array. -/
theorem algebraic : Cert.algebraic_KernelIdeal_ReferenceIdeal := by
  intro m ρ m' ρ' _ hagree
  refine ⟨fun c => Cert.GaussAdj.adj (Cert.KernelIdeal.AdjValue.coordK m c) (Cert.KernelIdeal.AdjValue.sqK m c),
    Cert.KernelIdeal.AdjValue.run m ρ, ?_⟩
  refine (θ_run Cert.ReferenceIdeal.defs _ _).mono (fun _ h c => ⟨(h c).1.trans ?_, (h c).2⟩)
    (Cert.ReferenceIdeal.RefRun.run m' ρ')
  rw [Cert.ReferenceIdeal.RefValue.tail_eq_adj, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
